-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x16x16 : Shape := ⟨4, ![256, 256, 16, 16]⟩
abbrev S64x5x256x16x16 : Shape := ⟨5, ![64, 5, 256, 16, 16]⟩
abbrev S_ : Shape := ⟨0, ![]⟩

class Facts : Prop where
  bcast_S_S256x256x16x16 : S_.BroadcastsInDim S256x256x16x16 (![] : Fin 0 → Fin S256x256x16x16.rank)
  reducesTo_S256x256x16x16_S_d0_1_2_3 : S256x256x16x16.ReducesTo [0, 1, 2, 3] S_
  h_S_ : 0 < S_.numel
  bcast_S_S64x5x256x16x16 : S_.BroadcastsInDim S64x5x256x16x16 (![] : Fin 0 → Fin S64x5x256x16x16.rank)
  reducesTo_S64x5x256x16x16_S_d0_1_2_3_4 : S64x5x256x16x16.ReducesTo [0, 1, 2, 3, 4] S_

variable [Facts]

def fn {F : FTy → Type} [FloatOps F] (main_arg0 : FVec F S256x256x16x16 .f32) (main_arg1 : FVec F S64x5x256x16x16 .f32) : IVec S_ 1 :=
  let main_v0 : FVec F S256x256x16x16 .f32 := Host.absf main_arg0
  let main_cst : FVec F S_ .f32 := constant S_ .f32 0x7F800000#32
  let main_v1 : FVec F S256x256x16x16 .f32 := broadcastInDim S256x256x16x16 ![] bcast_S_S256x256x16x16 main_cst
  let main_v2 : IVec S256x256x16x16 1 := cmpf .olt main_v0 main_v1
  let main_c : IVec S_ 1 := constantI S_ 1 1#1
  let main_v3 : IVec S_ 1 := (fun x v => Host.reduce IntOp.andi x v reducesTo_S256x256x16x16_S_d0_1_2_3 h_S_) main_v2 main_c
  let main_v4 : FVec F S64x5x256x16x16 .f32 := Host.absf main_arg1
  let main_cst_0 : FVec F S_ .f32 := constant S_ .f32 0x7F800000#32
  let main_v5 : FVec F S64x5x256x16x16 .f32 := broadcastInDim S64x5x256x16x16 ![] bcast_S_S64x5x256x16x16 main_cst_0
  let main_v6 : IVec S64x5x256x16x16 1 := cmpf .olt main_v4 main_v5
  let main_c_1 : IVec S_ 1 := constantI S_ 1 1#1
  let main_v7 : IVec S_ 1 := (fun x v => Host.reduce IntOp.andi x v reducesTo_S64x5x256x16x16_S_d0_1_2_3_4 h_S_) main_v6 main_c_1
  let main_v8 : IVec S_ 1 := andi main_v3 main_v7
  main_v8
-- ==== Kernel.lean ====
abbrev S256x256x16x16 : Shape := ⟨4, ![256, 256, 16, 16]⟩
abbrev S64x5x256x16x16 : Shape := ⟨5, ![64, 5, 256, 16, 16]⟩
abbrev S64x256x5x16x16 : Shape := ⟨5, ![64, 256, 5, 16, 16]⟩
abbrev S64x5x256x256 : Shape := ⟨4, ![64, 5, 256, 256]⟩
abbrev S64x256 : Shape := ⟨2, ![64, 256]⟩
abbrev S8x5x256x256 : Shape := ⟨4, ![8, 5, 256, 256]⟩
abbrev S8x256 : Shape := ⟨2, ![8, 256]⟩
abbrev S8x5x256 : Shape := ⟨3, ![8, 5, 256]⟩
abbrev S8x5x1x256 : Shape := ⟨4, ![8, 5, 1, 256]⟩
abbrev S8x256x256 : Shape := ⟨3, ![8, 256, 256]⟩
abbrev S256x256x256 : Shape := ⟨3, ![256, 256, 256]⟩
abbrev S256x256 : Shape := ⟨2, ![256, 256]⟩
abbrev S16x256x256 : Shape := ⟨3, ![16, 256, 256]⟩
abbrev S16x256 : Shape := ⟨2, ![16, 256]⟩
abbrev S16x256x1 : Shape := ⟨3, ![16, 256, 1]⟩
abbrev S256x64x256 : Shape := ⟨3, ![256, 64, 256]⟩
abbrev S64x64x256 : Shape := ⟨3, ![64, 64, 256]⟩
abbrev S64x1x256 : Shape := ⟨3, ![64, 1, 256]⟩
abbrev S1x64x256 : Shape := ⟨3, ![1, 64, 256]⟩
abbrev S256x16384 : Shape := ⟨2, ![256, 16384]⟩

abbrev nBuf : Space → Nat
  | .hbm => 11
  | .vmem => 20
  | .smem => 0
  | _ => 0

abbrev bufTy : (tb : Table) → Fin (tcTables nBuf tb) → BufTy
  | .hbm, ⟨0, _⟩ => ⟨S256x256x16x16, .f32⟩
  | .hbm, ⟨1, _⟩ => ⟨S64x5x256x16x16, .f32⟩
  | .hbm, ⟨2, _⟩ => ⟨S64x256x5x16x16, .f32⟩
  | .hbm, ⟨3, _⟩ => ⟨S64x5x256x256, .f32⟩
  | .hbm, ⟨4, _⟩ => ⟨S64x256, .f32⟩
  | .hbm, ⟨5, _⟩ => ⟨S64x256, .f32⟩
  | .hbm, ⟨6, _⟩ => ⟨S256x256x256, .f32⟩
  | .hbm, ⟨7, _⟩ => ⟨S256x256, .f32⟩
  | .hbm, ⟨8, _⟩ => ⟨S256x256, .f32⟩
  | .hbm, ⟨9, _⟩ => ⟨S256x64x256, .f32⟩
  | .hbm, ⟨10, _⟩ => ⟨S256x16384, .f32⟩
  | .local _ .vmem, ⟨0, _⟩ => ⟨S8x5x256x256, .f32⟩
  | .local _ .vmem, ⟨1, _⟩ => ⟨S8x5x256x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S16x256x256, .f32⟩
  | .local _ .vmem, ⟨7, _⟩ => ⟨S16x256x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S64x64x256, .f32⟩
  | .local _ .vmem, ⟨19, _⟩ => ⟨S64x64x256, .f32⟩
  | _, _ => ⟨S256x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x5x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S64x64x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S64x5x256x16x16_S64x256x5x16x16_0_2_1_3_4 : S64x5x256x16x16.Transposes [0, 2, 1, 3, 4] S64x256x5x16x16
  shapeCasts_S64x256x5x16x16_S64x5x256x256 : S64x256x5x16x16.ShapeCasts S64x5x256x256
  inb_S8x5x256x256_S8x5x256x256_0_0_0_0 : ∀ a, (![0, 0, 0, 0] : Fin 4 → Nat) a + S8x5x256x256.size a ≤ S8x5x256x256.size a
  h_S8x5x256x256 : 0 < S8x5x256x256.numel
  shapeCasts_S8x5x256x256_S8x5x256x256 : S8x5x256x256.ShapeCasts S8x5x256x256
  reduces_S8x5x256x256_S8x5x256 : S8x5x256x256.Reduces [2] S8x5x256
  shapeCasts_S8x5x256_S8x5x1x256 : S8x5x256.ShapeCasts S8x5x1x256
  broadcasts_S8x5x1x256_S8x5x256x256 : S8x5x1x256.Broadcasts S8x5x256x256
  reduces_S8x5x256x256_S8x256x256 : S8x5x256x256.Reduces [1] S8x256x256
  reduces_S8x256x256_S8x256 : S8x256x256.Reduces [1] S8x256
  inb_S8x256_S8x256_0_0 : ∀ a, (![0, 0] : Fin 2 → Nat) a + S8x256.size a ≤ S8x256.size a
  h_S8x256 : 0 < S8x256.numel
  shapeCasts_S256x256x16x16_S256x256x256 : S256x256x16x16.ShapeCasts S256x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  reduces_S16x256x256_S16x256 : S16x256x256.Reduces [2] S16x256
  shapeCasts_S16x256_S16x256x1 : S16x256.ShapeCasts S16x256x1
  broadcasts_S16x256x1_S16x256x256 : S16x256x1.Broadcasts S16x256x256
  reduces_S16x256x256_S16x256_2 : S16x256x256.Reduces [1] S16x256
  inb_S16x256_S16x256_0_0 : ∀ a, (![0, 0] : Fin 2 → Nat) a + S16x256.size a ≤ S16x256.size a
  h_S16x256 : 0 < S16x256.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  shapeCasts_S64x1x256_S64x1x256 : S64x1x256.ShapeCasts S64x1x256
  broadcasts_S64x1x256_S64x64x256 : S64x1x256.Broadcasts S64x64x256
  shapeCasts_S64x256_S1x64x256 : S64x256.ShapeCasts S1x64x256
  shapeCasts_S1x64x256_S1x64x256 : S1x64x256.ShapeCasts S1x64x256
  broadcasts_S1x64x256_S64x64x256 : S1x64x256.Broadcasts S64x64x256
  inb_S64x64x256_S64x64x256_0_0_0 : ∀ a, (![0, 0, 0] : Fin 3 → Nat) a + S64x64x256.size a ≤ S64x64x256.size a
  h_S64x64x256 : 0 < S64x64x256.numel
  shapeCasts_S256x64x256_S256x16384 : S256x64x256.ShapeCasts S256x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5x256x256.size a ≤ S64x5x256x256.size a
  hwx0_0 : ∀ i : grid0.Coords, EltTy.bits .f32 = 32 ∨ (Rect.block (s := S64x5x256x256) S8x5x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S64x256.size a
  hwx0_2 : ∀ i : grid0.Coords, EltTy.bits .f32 = 32 ∨ (Rect.block (s := S64x256) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x256.size a ≤ S256x256x256.size a
  hwx1_0 : ∀ i : grid1.Coords, EltTy.bits .f32 = 32 ∨ (Rect.block (s := S256x256x256) S16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S256x256.size a
  hwx1_1 : ∀ i : grid1.Coords, EltTy.bits .f32 = 32 ∨ (Rect.block (s := S256x256) S16x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S256x256.size a
  hwx1_2 : ∀ i : grid1.Coords, EltTy.bits .f32 = 32 ∨ (Rect.block (s := S256x256) S16x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S256x256.size a
  hwx2_0 : ∀ i : grid2.Coords, EltTy.bits .f32 = 32 ∨ (Rect.block (s := S256x256) S64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S256x256.size a
  hwx2_1 : ∀ i : grid2.Coords, EltTy.bits .f32 = 32 ∨ (Rect.block (s := S256x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x64x256.size a ≤ S256x64x256.size a
  hwx2_4 : ∀ i : grid2.Coords, EltTy.bits .f32 = 32 ∨ (Rect.block (s := S256x64x256) S64x64x256.size (cc2_transform_4 i) (hinb2_4 i)).WholeWords (EltTy.packing .f32)

variable [Facts₀]

abbrev win0_0 : Pipeline.Window sig grid0 :=
  Pipeline.Window.ofSpec (Memref.whole main_v1) S8x5x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S16x256.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S16x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4_0) S64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S64x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S64x64x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S256x256x16x16 : Shape := ⟨4, ![256, 256, 16, 16]⟩
abbrev S64x5x256x16x16 : Shape := ⟨5, ![64, 5, 256, 16, 16]⟩
abbrev S64x256x5x16x16 : Shape := ⟨5, ![64, 256, 5, 16, 16]⟩
abbrev S64x5x256x256 : Shape := ⟨4, ![64, 5, 256, 256]⟩
abbrev S_ : Shape := ⟨0, ![]⟩
abbrev S64x5x256 : Shape := ⟨3, ![64, 5, 256]⟩
abbrev S64x5x1x256 : Shape := ⟨4, ![64, 5, 1, 256]⟩
abbrev S64x256x256 : Shape := ⟨3, ![64, 256, 256]⟩
abbrev S256x256x256 : Shape := ⟨3, ![256, 256, 256]⟩
abbrev S256x256 : Shape := ⟨2, ![256, 256]⟩
abbrev S256x256x1 : Shape := ⟨3, ![256, 256, 1]⟩
abbrev S64x256 : Shape := ⟨2, ![64, 256]⟩
abbrev S256x1x256 : Shape := ⟨3, ![256, 1, 256]⟩
abbrev S1x64x256 : Shape := ⟨3, ![1, 64, 256]⟩
abbrev S256x64x256 : Shape := ⟨3, ![256, 64, 256]⟩
abbrev S256x16384 : Shape := ⟨2, ![256, 16384]⟩

abbrev nBuf : Space → Nat
  | .hbm => 49
  | .vmem => 0
  | .smem => 0
  | _ => 0

abbrev bufTy : (tb : Table) → Fin (tcTables nBuf tb) → BufTy
  | .hbm, ⟨0, _⟩ => ⟨S256x256x16x16, .f32⟩
  | .hbm, ⟨1, _⟩ => ⟨S64x5x256x16x16, .f32⟩
  | .hbm, ⟨2, _⟩ => ⟨S64x256x5x16x16, .f32⟩
  | .hbm, ⟨3, _⟩ => ⟨S64x5x256x256, .f32⟩
  | .hbm, ⟨4, _⟩ => ⟨S_, .f32⟩
  | .hbm, ⟨5, _⟩ => ⟨S64x5x256, .f32⟩
  | .hbm, ⟨6, _⟩ => ⟨S64x5x1x256, .f32⟩
  | .hbm, ⟨7, _⟩ => ⟨S_, .f32⟩
  | .hbm, ⟨8, _⟩ => ⟨S64x5x1x256, .f32⟩
  | .hbm, ⟨9, _⟩ => ⟨S64x5x1x256, .f32⟩
  | .hbm, ⟨10, _⟩ => ⟨S64x5x256x256, .f32⟩
  | .hbm, ⟨11, _⟩ => ⟨S64x5x256x256, .f32⟩
  | .hbm, ⟨12, _⟩ => ⟨S_, .f32⟩
  | .hbm, ⟨13, _⟩ => ⟨S64x256x256, .f32⟩
  | .hbm, ⟨14, _⟩ => ⟨S256x256x256, .f32⟩
  | .hbm, ⟨15, _⟩ => ⟨S256x256x256, .f32⟩
  | .hbm, ⟨16, _⟩ => ⟨S_, .f32⟩
  | .hbm, ⟨17, _⟩ => ⟨S256x256, .f32⟩
  | .hbm, ⟨18, _⟩ => ⟨S256x256x1, .f32⟩
  | .hbm, ⟨19, _⟩ => ⟨S256x256x1, .f32⟩
  | .hbm, ⟨20, _⟩ => ⟨S256x256x256, .f32⟩
  | .hbm, ⟨21, _⟩ => ⟨S256x256x256, .f32⟩
  | .hbm, ⟨22, _⟩ => ⟨S_, .f32⟩
  | .hbm, ⟨23, _⟩ => ⟨S256x256, .f32⟩
  | .hbm, ⟨24, _⟩ => ⟨S_, .f32⟩
  | .hbm, ⟨25, _⟩ => ⟨S64x256, .f32⟩
  | .hbm, ⟨26, _⟩ => ⟨S64x256x256, .f32⟩
  | .hbm, ⟨27, _⟩ => ⟨S_, .f32⟩
  | .hbm, ⟨28, _⟩ => ⟨S64x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x1x256, .f32⟩
  | .hbm, ⟨34, _⟩ => ⟨S1x64x256, .f32⟩
  | .hbm, ⟨35, _⟩ => ⟨S256x64x256, .f32⟩
  | .hbm, ⟨36, _⟩ => ⟨S256x64x256, .f32⟩
  | .hbm, ⟨37, _⟩ => ⟨S256x64x256, .f32⟩
  | .hbm, ⟨38, _⟩ => ⟨S256x1x256, .f32⟩
  | .hbm, ⟨39, _⟩ => ⟨S1x64x256, .f32⟩
  | .hbm, ⟨40, _⟩ => ⟨S256x64x256, .f32⟩
  | .hbm, ⟨41, _⟩ => ⟨S256x64x256, .f32⟩
  | .hbm, ⟨42, _⟩ => ⟨S256x64x256, .f32⟩
  | .hbm, ⟨43, _⟩ => ⟨S_, .f32⟩
  | .hbm, ⟨44, _⟩ => ⟨S256x64x256, .f32⟩
  | .hbm, ⟨45, _⟩ => ⟨S256x64x256, .f32⟩
  | .hbm, ⟨46, _⟩ => ⟨S256x64x256, .f32⟩
  | .hbm, ⟨47, _⟩ => ⟨S256x64x256, .f32⟩
  | .hbm, ⟨48, _⟩ => ⟨S256x16384, .f32⟩
  | _, _ => ⟨S256x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  transposes_S64x5x256x16x16_S64x256x5x16x16_0_2_1_3_4 : S64x5x256x16x16.Transposes [0, 2, 1, 3, 4] S64x256x5x16x16
  shapeCasts_S64x256x5x16x16_S64x5x256x256 : S64x256x5x16x16.ShapeCasts S64x5x256x256
  reducesTo_S64x5x256x256_S64x5x256_d2 : S64x5x256x256.ReducesTo [2] S64x5x256
  h_S_ : 0 < S_.numel
  bcast_S64x5x256_S64x5x1x256_0_1_3 : S64x5x256.BroadcastsInDim S64x5x1x256 (![0, 1, 3] : Fin 3 → Fin S64x5x1x256.rank)
  bcast_S_S64x5x1x256 : S_.BroadcastsInDim S64x5x1x256 (![] : Fin 0 → Fin S64x5x1x256.rank)
  bcast_S64x5x1x256_S64x5x256x256_0_1_2_3 : S64x5x1x256.BroadcastsInDim S64x5x256x256 (![0, 1, 2, 3] : Fin 4 → Fin S64x5x256x256.rank)
  reducesTo_S64x5x256x256_S64x256x256_d1 : S64x5x256x256.ReducesTo [1] S64x256x256
  shapeCasts_S256x256x16x16_S256x256x256 : S256x256x16x16.ShapeCasts S256x256x256
  reducesTo_S256x256x256_S256x256_d2 : S256x256x256.ReducesTo [2] S256x256
  bcast_S256x256_S256x256x1_0_1 : S256x256.BroadcastsInDim S256x256x1 (![0, 1] : Fin 2 → Fin S256x256x1.rank)
  bcast_S256x256x1_S256x256x256_0_1_2 : S256x256x1.BroadcastsInDim S256x256x256 (![0, 1, 2] : Fin 3 → Fin S256x256x256.rank)
  reducesTo_S256x256x256_S256x256_d1 : S256x256x256.ReducesTo [1] S256x256
  reducesTo_S64x256x256_S64x256_d1 : S64x256x256.ReducesTo [1] S64x256
  bcast_S_S256x256 : S_.BroadcastsInDim S256x256 (![] : Fin 0 → Fin S256x256.rank)
  bcast_S256x256_S256x1x256_0_2 : S256x256.BroadcastsInDim S256x1x256 (![0, 2] : Fin 2 → Fin S256x1x256.rank)
  bcast_S64x256_S1x64x256_1_2 : S64x256.BroadcastsInDim S1x64x256 (![1, 2] : Fin 2 → Fin S1x64x256.rank)
  bcast_S256x1x256_S256x64x256_0_1_2 : S256x1x256.BroadcastsInDim S256x64x256 (![0, 1, 2] : Fin 3 → Fin S256x64x256.rank)
  bcast_S1x64x256_S256x64x256_0_1_2 : S1x64x256.BroadcastsInDim S256x64x256 (![0, 1, 2] : Fin 3 → Fin S256x64x256.rank)
  bcast_S_S256x64x256 : S_.BroadcastsInDim S256x64x256 (![] : Fin 0 → Fin S256x64x256.rank)
  shapeCasts_S256x64x256_S256x16384 : S256x64x256.ShapeCasts S256x16384

variable [Facts₀]

class Facts : Prop extends Facts₀ where

variable [Facts]
-- ==== Proof.Spec.lean ====
/-
  The mathematics both programs compute, as functions of two arrays: V, the support features laid out
  [n, s, c, k] (64 classes, 5 shots, 256 channels, 256 positions), and X, the query features laid out
  [b, c, k] (256 queries, 256 channels, 256 positions). Everything is over the extended reals.

  For a class n, shot s and position k, the mean over channels of V is subtracted from every channel; the
  centred values are summed over the shots (ssum). Its sum over channels is ssumC, the sum over channels of
  its square is w2. For a query b each channel's row over the positions is divided by its Euclidean norm
  (nrm), and the quotients are summed over channels (qsum); w1 is 256 · qsum · qsum. The similarity at
  (b, n, k) is qsum · ssumC over the square root of max (w1 · w2, ε).

  No law of arithmetic is used anywhere: both programs apply these operations in this order, so the two sides
  meet term by term, and no input needs to be finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The channel count as both programs write it: the f32 word of 256. -/
abbrev c256 : EReal := Ideal.ofBits .f32 0x43800000#32
/-- The floor under the squared denominator: the f32 word both programs carry for 1e-16. -/
abbrev eps : EReal := Ideal.ofBits .f32 0x24E69595#32

/-- The mean over the 256 channels of V at class n, shot s, position k. -/
def mean (V : (⟨4, ![64, 5, 256, 256]⟩ : Shape).Idx → EReal) (n : Fin 64) (s : Fin 5) (k : Fin 256) : EReal :=
  Ideal.div (∑ c : Fin 256, V (ix4 n s c k)) c256

/-- The centred values summed over the 5 shots, at class n, channel c, position k. -/
def ssum (V : (⟨4, ![64, 5, 256, 256]⟩ : Shape).Idx → EReal) (n : Fin 64) (c : Fin 256) (k : Fin 256) : EReal :=
  ∑ s : Fin 5, (V (ix4 n s c k) - mean V n s k)

/-- ssum summed over channels: an array over (class, position). -/
def ssumC (V : (⟨4, ![64, 5, 256, 256]⟩ : Shape).Idx → EReal) : (⟨2, ![64, 256]⟩ : Shape).Idx → EReal :=
  fun j => ∑ c : Fin 256, ssum V (j 0) c (j 1)

/-- The squares of ssum summed over channels: an array over (class, position). -/
def w2 (V : (⟨4, ![64, 5, 256, 256]⟩ : Shape).Idx → EReal) : (⟨2, ![64, 256]⟩ : Shape).Idx → EReal :=
  fun j => ∑ c : Fin 256, ssum V (j 0) c (j 1) * ssum V (j 0) c (j 1)

/-- The Euclidean norm over the 256 positions of query b's channel c. -/
def nrm (X : (⟨3, ![256, 256, 256]⟩ : Shape).Idx → EReal) (b : Fin 256) (c : Fin 256) : EReal :=
  Ideal.sqrt (∑ k : Fin 256, X (ix3 b c k) * X (ix3 b c k))

/-- Each channel's row divided by its norm, summed over channels: an array over (query, position). -/
def qsum (X : (⟨3, ![256, 256, 256]⟩ : Shape).Idx → EReal) : (⟨2, ![256, 256]⟩ : Shape).Idx → EReal :=
  fun j => ∑ c : Fin 256, Ideal.div (X (ix3 (j 0) c (j 1))) (nrm X (j 0) c)

/-- 256 · qsum · qsum, multiplied in that order. -/
def w1 (X : (⟨3, ![256, 256, 256]⟩ : Shape).Idx → EReal) : (⟨2, ![256, 256]⟩ : Shape).Idx → EReal :=
  fun j => c256 * qsum X j * qsum X j

/-- The similarity from the four reduced arrays, at (query b, class n, position k). -/
def sim (q w₁ : (⟨2, ![256, 256]⟩ : Shape).Idx → EReal) (sc w₂ : (⟨2, ![64, 256]⟩ : Shape).Idx → EReal) :
    (⟨3, ![256, 64, 256]⟩ : Shape).Idx → EReal :=
  fun i => Ideal.div (q (ix2 (i 0) (i 2)) * sc (ix2 (i 1) (i 2)))
    (Ideal.sqrt (max (w₁ (ix2 (i 0) (i 2)) * w₂ (ix2 (i 1) (i 2))) eps))

/-- The whole similarity array as a function of V and X. -/
def simOf (V : (⟨4, ![64, 5, 256, 256]⟩ : Shape).Idx → EReal) (X : (⟨3, ![256, 256, 256]⟩ : Shape).Idx → EReal) :
    (⟨3, ![256, 64, 256]⟩ : Shape).Idx → EReal :=
  sim (qsum X) (w1 X) (ssumC V) (w2 V)

end Cert.Spec

end
-- ==== Proof.Region0.lean ====
/-
  The first region, over 8 grid points, each taking 8 of the 64 classes of V whole. At a point the body
  centres its block over the channels, sums over the shots, and stores the sum over channels and the sum of
  squares over channels. No operation mixes classes, so each stored block is the block of ssumC V, and of
  w2 V, at the point's 8 classes; the 8 blocks tile the 64 classes.
-/
import proofs.«127284_j635655160223_1_alg».proof.Proof.Gen.KernelIdeal.Frame
import proofs.«127284_j635655160223_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The body's arithmetic at an index -/

/-- The index a sum over the shots reads at shot s: the class row, channel and position kept. -/
theorem lift_shot (p : Fin 8) (ch k : Fin 256) (s : Fin 5) :
    (reduces_S8x5x256x256_S8x256x256.lift (ix3 p ch k) s : S8x5x256x256.Idx) = ix4 p s ch k := by
  funext a; apply Fin.ext
  match a with | ⟨0, _⟩ => rfl | ⟨1, _⟩ => rfl | ⟨2, _⟩ => rfl | ⟨3, _⟩ => rfl

/-- The index the mean's sum over the channels reads at channel ch. -/
theorem lift_chan_of_block (p : Fin 8) (s : Fin 5) (k : Fin 256) (ch : Fin 256) :
    (reduces_S8x5x256x256_S8x5x256.lift (ix3 p s k) ch : S8x5x256x256.Idx) = ix4 p s ch k := by
  funext a; apply Fin.ext
  match a with | ⟨0, _⟩ => rfl | ⟨1, _⟩ => rfl | ⟨2, _⟩ => rfl | ⟨3, _⟩ => rfl

/-- The index the last sum over the channels reads at channel ch. -/
theorem lift_chan_of_centred (p : Fin 8) (k : Fin 256) (ch : Fin 256) :
    (reduces_S8x256x256_S8x256.lift (ix2 p k) ch : S8x256x256.Idx) = ix3 p ch k := by
  funext a; apply Fin.ext
  match a with | ⟨0, _⟩ => rfl | ⟨1, _⟩ => rfl | ⟨2, _⟩ => rfl

/-- One class and position of a [shot, channel] slab f: the slab centred over the channels by each shot's mean and
    summed over the shots, at channel ch. -/
def centredShotSum (f : Fin 5 → Fin 256 → EReal) (ch : Fin 256) : EReal :=
  ∑ s : Fin 5, (f s ch - Ideal.div (∑ c' : Fin 256, f s c') Cert.Spec.c256)

/-- The body's centred block summed over the shots, at class row p, channel ch, position k. -/
theorem centred_apply (x0 : FVec Ideal S8x5x256x256 .f32) (p : Fin 8) (ch k : Fin 256) :
    k0_pay1 (F := Ideal) x0 (ix3 p ch k) = centredShotSum (fun s c' => x0 (ix4 p s c' k)) ch := by
  unfold k0_pay1 centredShotSum
  simp only [shapeCast_self]
  refine (Ideal.multiReduction_add_single _ _ _ _ _ _).trans ?_
  show ∑ s : Fin 5, _ = _
  refine Finset.sum_congr rfl fun s _ => ?_
  rw [lift_shot, subf_apply]
  congr 1
  rw [broadcastTo_apply _ _ _ (ix4 p s (0 : Fin 1) k) (fun a => by
    match a with | ⟨0, _⟩ => rfl | ⟨1, _⟩ => rfl | ⟨2, _⟩ => rfl | ⟨3, _⟩ => rfl)]
  rw [divf_apply, broadcast_apply]
  rw [shapeCast_apply _ _ _ (ix3 p s k) (by rw [Shape.rowMajor_val_three, Shape.rowMajor_val_four]; show _ = _; simp)]
  congr 1
  refine (Ideal.multiReduction_add_single _ _ _ _ _ _).trans ?_
  show ∑ c' : Fin 256, _ = _
  refine Finset.sum_congr rfl fun c' _ => ?_
  rw [lift_chan_of_block]

/-- The first stored block at (p, k): the centred shot sums added over the channels. -/
theorem chanSum_apply (x0 : FVec Ideal S8x5x256x256 .f32) (j : S8x256.Idx) :
    k0_pay2 (F := Ideal) x0 j = ∑ ch : Fin 256, centredShotSum (fun s c' => x0 (ix4 (j 0) s c' (j 1))) ch := by
  obtain ⟨p, k, rfl⟩ : ∃ (p : Fin 8) (k : Fin 256), j = ix2 p k := ⟨j 0, j 1, eq_ix2 j⟩
  unfold k0_pay2
  refine (Ideal.multiReduction_add_single _ _ _ _ _ _).trans ?_
  show ∑ ch : Fin 256, _ = _
  refine Finset.sum_congr rfl fun ch _ => ?_
  rw [lift_chan_of_centred, centred_apply]

/-- The second stored block at (p, k): the squares of the centred shot sums added over the channels. -/
theorem chanSqSum_apply (x0 : FVec Ideal S8x5x256x256 .f32) (j : S8x256.Idx) :
    k0_pay3 (F := Ideal) x0 j = ∑ ch : Fin 256, centredShotSum (fun s c' => x0 (ix4 (j 0) s c' (j 1))) ch
        * centredShotSum (fun s c' => x0 (ix4 (j 0) s c' (j 1))) ch := by
  obtain ⟨p, k, rfl⟩ : ∃ (p : Fin 8) (k : Fin 256), j = ix2 p k := ⟨j 0, j 1, eq_ix2 j⟩
  unfold k0_pay3
  refine (Ideal.multiReduction_add_single _ _ _ _ _ _).trans ?_
  show ∑ ch : Fin 256, _ = _
  refine Finset.sum_congr rfl fun ch _ => ?_
  rw [lift_chan_of_centred, mulf_apply, centred_apply]

/-! ## The blocks -/

theorem off2_zero : (![0, 0] : Fin 2 → Nat) = fun _ => 0 := funext fun a => by fin_cases a <;> rfl
theorem off4_zero : (![0, 0, 0, 0] : Fin 4 → Nat) = fun _ => 0 := funext fun a => by fin_cases a <;> rfl

/-- The printed index maps over the grid: at point t every window's block index is t on the class axis and 0 on the
    others. -/
theorem block_index : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point t, row p, is class n = 8·t + p of the array the window reads. -/
theorem block_read (c : Dev nD) (t : Fin cfg0.N) (p : Fin 8) (s : Fin 5) (ch k : Fin 256) (n : Fin 64) (k' : Fin 256)
    (hn : n.val = 8 * t.val + p.val) (hk : k'.val = k.val) :
    (iblk0 (F := Ideal) V c 0 t : Vec Ideal S8x5x256x256 .f32) (ix4 p s ch k)
      = (V c main_v1 : S64x5x256x256.Idx → EReal) (ix4 n s ch k') := by
  obtain ⟨e0, e1, e2, e3, -⟩ := block_index t
  unfold iblk0
  rw [View.read_apply]
  show V c main_v1 _ = V c main_v1 _
  congr 1
  funext a; apply Fin.ext
  match a with
  | ⟨0, _⟩ => show win0_0.index t (0 : Fin 4) * 8 + 1 * p.val = n.val; omega
  | ⟨1, _⟩ => show win0_0.index t (1 : Fin 4) * 5 + 1 * s.val = s.val; omega
  | ⟨2, _⟩ => show win0_0.index t (2 : Fin 4) * 256 + 1 * ch.val = ch.val; omega
  | ⟨3, _⟩ => show win0_0.index t (3 : Fin 4) * 256 + 1 * k.val = k'.val; omega

/-- What point t writes back of the first output: block t of ssumC of the array the input window reads. -/
theorem flushed_ssumC (c : Dev nD) (t : Fin cfg0.N) :
    (dat0 (F := Ideal) V c).flushed 1 t
      = ((cfg0.win 1).blk t).view.read (Elt Ideal) (Cert.Spec.ssumC (V c main_v1)) := by
  show (cfg0.win 1).cut (grid0.coords t) ((dat0 (F := Ideal) V c).after 1 t) = _
  rw [after0_1]
  unfold out0_1
  rw [View.canon_unit_zero off2_zero]
  simp only [View.ld_unit_zero (S := S8x5x256x256) off4_zero]
  obtain ⟨-, -, -, -, e4, e5, -⟩ := block_index t
  funext j
  have hn : ((((cfg0.win 1).blk t).view.emb j) 0).val = 8 * t.val + (j 0).val := by
    show win0_1.index t (0 : Fin 2) * 8 + 1 * (j 0).val = _; omega
  have hk : ((((cfg0.win 1).blk t).view.emb j) 1).val = (j 1).val := by
    show win0_1.index t (1 : Fin 2) * 256 + 1 * (j 1).val = _; omega
  show k0_pay2 (F := Ideal) (iblk0 V c 0 t) j = Cert.Spec.ssumC (V c main_v1) (((cfg0.win 1).blk t).view.emb j)
  refine (chanSum_apply _ _).trans ?_
  exact congrArg (fun f => ∑ ch : Fin 256, centredShotSum f ch)
    (funext fun s => funext fun c' => block_read V c t _ s c' _ _ _ hn hk)

/-- What point t writes back of the second output: block t of w2 of the array the input window reads. -/
theorem flushed_w2 (c : Dev nD) (t : Fin cfg0.N) :
    (dat0 (F := Ideal) V c).flushed 2 t
      = ((cfg0.win 2).blk t).view.read (Elt Ideal) (Cert.Spec.w2 (V c main_v1)) := by
  show (cfg0.win 2).cut (grid0.coords t) ((dat0 (F := Ideal) V c).after 2 t) = _
  rw [after0_2]
  unfold out0_2
  rw [View.canon_unit_zero off2_zero]
  simp only [View.ld_unit_zero (S := S8x5x256x256) off4_zero]
  obtain ⟨-, -, -, -, -, -, e6, e7⟩ := block_index t
  funext j
  have hn : ((((cfg0.win 2).blk t).view.emb j) 0).val = 8 * t.val + (j 0).val := by
    show win0_2.index t (0 : Fin 2) * 8 + 1 * (j 0).val = _; omega
  have hk : ((((cfg0.win 2).blk t).view.emb j) 1).val = (j 1).val := by
    show win0_2.index t (1 : Fin 2) * 256 + 1 * (j 1).val = _; omega
  show k0_pay3 (F := Ideal) (iblk0 V c 0 t) j = Cert.Spec.w2 (V c main_v1) (((cfg0.win 2).blk t).view.emb j)
  refine (chanSqSum_apply _ _).trans ?_
  exact congrArg (fun f => ∑ ch : Fin 256, centredShotSum f ch * centredShotSum f ch)
    (funext fun s => funext fun c' => block_read V c t _ s c' _ _ _ hn hk)

/-! ## The 8 blocks tile the 64 classes -/

/-- An index of the first output array is in point t's block iff each coordinate is in the block's range on its axis. -/
theorem mem_block_ssumC (t : Fin cfg0.N) (i : S64x256.Idx) :
    i ∈ ((cfg0.win 1).blk t).view.set ↔ ∀ a : Fin 2, win0_1.index t a * S8x256.size a ≤ (i a).val
      ∧ (i a).val < win0_1.index t a * S8x256.size a + S8x256.size a := by
  show i ∈ ((View.whole main_v2_0).slice (win0_1.rect t)).set ↔ _
  rw [View.set_slice_whole, Rect.mem_set_unit]
  exact Iff.rfl

/-- The same for the second output array. -/
theorem mem_block_w2 (t : Fin cfg0.N) (i : S64x256.Idx) :
    i ∈ ((cfg0.win 2).blk t).view.set ↔ ∀ a : Fin 2, win0_2.index t a * S8x256.size a ≤ (i a).val
      ∧ (i a).val < win0_2.index t a * S8x256.size a + S8x256.size a := by
  show i ∈ ((View.whole main_v2_1).slice (win0_2.rect t)).set ↔ _
  rw [View.set_slice_whole, Rect.mem_set_unit]
  exact Iff.rfl

/-- Class n is in the block of point n / 8. -/
theorem point_of_class (i : S64x256.Idx) : ∃ t : Fin cfg0.N, t.val = (i 0).val / 8 := by
  have hi0 : (i 0).val < 64 := (i 0).isLt
  have hN : cfg0.N = 8 := N_0
  exact ⟨⟨(i 0).val / 8, by omega⟩, rfl⟩

theorem cover_ssumC (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  obtain ⟨t, ht⟩ := point_of_class i
  obtain ⟨-, -, -, -, e4, e5, -⟩ := block_index t
  refine ⟨t, flush0_1 t, ?_⟩
  rw [mem_block_ssumC]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 256 ≤ (i 1).val ∧ (i 1).val < win0_1.index t (1 : Fin 2) * 256 + 256; omega

theorem cover_w2 (i : S64x256.Idx) :
    ∃ t : Fin cfg0.N, (cfg0.win 2).flush t = true ∧ i ∈ ((cfg0.win 2).blk t).view.set := by
  have hi0 : (i 0).val < 64 := (i 0).isLt
  have hi1 : (i 1).val < 256 := (i 1).isLt
  obtain ⟨t, ht⟩ := point_of_class i
  obtain ⟨-, -, -, -, -, -, e6, e7⟩ := block_index t
  refine ⟨t, flush0_2 t, ?_⟩
  rw [mem_block_w2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 256 ≤ (i 1).val ∧ (i 1).val < win0_2.index t (1 : Fin 2) * 256 + 256; omega

/-! ## The arrays after the region -/

/-- After the region its first output array holds ssumC of the array the input window reads. -/
theorem arr_ssumC (c : Dev nD) : (dat0 (F := Ideal) V c).arrAt 1 cfg0.N = Cert.Spec.ssumC (V c main_v1) := by
  exact (dat0 (F := Ideal) V c).arrAt_eq_of_cover 1 (Cert.Spec.ssumC (V c main_v1))
    (fun t _ => flushed_ssumC V c t) cover_ssumC

/-- After the region its second output array holds w2 of the array the input window reads. -/
theorem arr_w2 (c : Dev nD) : (dat0 (F := Ideal) V c).arrAt 2 cfg0.N = Cert.Spec.w2 (V c main_v1) := by
  exact (dat0 (F := Ideal) V c).arrAt_eq_of_cover 2 (Cert.Spec.w2 (V c main_v1))
    (fun t _ => flushed_w2 V c t) cover_w2

end Cert.KernelIdeal.Region0

end
-- ==== Proof.Region1.lean ====
/-
  The second region, over 16 grid points, each taking 16 of the 256 queries of X whole. At a point the body
  divides each channel's row by its Euclidean norm over the positions, sums the quotients over the channels
  (qsum), and stores that and 256 · qsum · qsum. No operation mixes queries, so each stored block is the block
  of qsum X, and of w1 X, at the point's 16 queries; the 16 blocks tile the 256 queries.
-/
import proofs.«127284_j635655160223_1_alg».proof.Proof.Gen.KernelIdeal.Frame
import proofs.«127284_j635655160223_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The column cast [16,256] → [16,256,1] keeps the entry at (p, ch). -/
theorem col_apply {α : Type} (v : S16x256.Idx → α) (h : S16x256.ShapeCasts S16x256x1) (p : Fin 16) (ch : Fin 256) (z : Fin 1) :
    shapeCast S16x256x1 v h (ix3 p ch z) = v (ix2 p ch) := by
  refine shapeCast_apply v h _ _ ?_
  rw [Shape.rowMajor_val_two, Shape.rowMajor_val_three]
  show p.val * 256 + ch.val = (p.val * 256 + ch.val) * 1 + z.val
  have := z.isLt
  omega

/-- The broadcast [16,256,1] → [16,256,256] repeats the column along the positions. -/
theorem bcast_apply {α : Type} (w : S16x256x1.Idx → α) (h : S16x256x1.Broadcasts S16x256x256) (p : Fin 16) (ch : Fin 256) (k : Fin 256) :
    broadcastTo S16x256x256 w h (ix3 p ch k) = w (ix3 p ch (0 : Fin 1)) := by
  refine broadcastTo_apply w h _ _ ?_
  intro a
  match a with
  | ⟨0, _⟩ => rfl
  | ⟨1, _⟩ => rfl
  | ⟨2, _⟩ => rfl

/-- The sum of squares over the positions, at block row p and channel ch. -/
theorem sq_apply (x0 : Vec Ideal S16x256x256 .f32) (h : S16x256x256.Reduces [2] S16x256) (hφ : FKind.Formats .f32)
    (hacc : (0x00000000#32 : BitVec 32) = FKind.add.neutral .f32 hφ) (p : Fin 16) (ch : Fin 256) :
    multiReduction (F := Ideal) .add [2] S16x256 (mulf x0 x0) 0x00000000#32 h hφ hacc (ix2 p ch)
      = ∑ k : Fin 256, x0 (ix3 p ch k) * x0 (ix3 p ch k) := by
  refine (Ideal.multiReduction_add_single _ _ _ _ _ _).trans ?_
  refine Finset.sum_congr rfl fun k _ => ?_
  have e : h.lift (ix2 p ch) k = ix3 p ch k := by
    funext a; apply Fin.ext
    match a with
    | ⟨0, _⟩ => rfl
    | ⟨1, _⟩ => rfl
    | ⟨2, _⟩ => rfl
  rw [e]; rfl

/-- The body's first payload at block row p and position k: each channel's entry over its row's norm, summed over channels. -/
theorem pay1_apply (x0 : Vec Ideal S16x256x256 .f32) (p : Fin 16) (k : Fin 256) :
    k1_pay1 (F := Ideal) x0 (ix2 p k)
      = ∑ ch : Fin 256, Ideal.div (x0 (ix3 p ch k)) (Ideal.sqrt (∑ k' : Fin 256, x0 (ix3 p ch k') * x0 (ix3 p ch k'))) := by
  unfold k1_pay1
  simp only [shapeCast_self]
  refine (Ideal.multiReduction_add_single _ _ _ _ _ _).trans ?_
  refine Finset.sum_congr rfl fun ch _ => ?_
  have e : reduces_S16x256x256_S16x256_2.lift (ix2 p k) ch = ix3 p ch k := by
    funext a; apply Fin.ext
    match a with
    | ⟨0, _⟩ => rfl
    | ⟨1, _⟩ => rfl
    | ⟨2, _⟩ => rfl
  rw [e]
  refine (divf_apply _ _ _).trans ?_
  refine congrArg (Ideal.div (x0 (ix3 p ch k))) ?_
  refine (bcast_apply _ _ p ch k).trans ?_
  show Ideal.sqrt (shapeCast S16x256x1 _ _ (ix3 p ch (0 : Fin 1))) = _
  refine congrArg Ideal.sqrt ?_
  refine (col_apply _ _ p ch 0).trans ?_
  exact sq_apply x0 _ _ _ p ch

/-- The second payload is 256 times the first, times the first. -/
theorem pay2_apply (x0 : Vec Ideal S16x256x256 .f32) (j : S16x256.Idx) :
    k1_pay2 (F := Ideal) x0 j = Cert.Spec.c256 * k1_pay1 (F := Ideal) x0 j * k1_pay1 (F := Ideal) x0 j := rfl

/-- A block whose row p is query b of the array X has, as its first payload at row p, qsum of X at query b. -/
theorem pay1_of_rows (X : S256x256x256.Idx → EReal) (x0 : Vec Ideal S16x256x256 .f32) (p : Fin 16) (b : Fin 256)
    (hx : ∀ ch k : Fin 256, x0 (ix3 p ch k) = X (ix3 b ch k)) (k : Fin 256) :
    k1_pay1 (F := Ideal) x0 (ix2 p k) = Cert.Spec.qsum X (ix2 b k) := by
  rw [pay1_apply]
  show _ = ∑ ch : Fin 256, Ideal.div (X (ix3 b ch k)) (Ideal.sqrt (∑ k' : Fin 256, X (ix3 b ch k') * X (ix3 b ch k')))
  simp only [hx]

/-- … and, as its second payload at row p, w1 of X at query b. -/
theorem pay2_of_rows (X : S256x256x256.Idx → EReal) (x0 : Vec Ideal S16x256x256 .f32) (p : Fin 16) (b : Fin 256)
    (hx : ∀ ch k : Fin 256, x0 (ix3 p ch k) = X (ix3 b ch k)) (k : Fin 256) :
    k1_pay2 (F := Ideal) x0 (ix2 p k) = Cert.Spec.w1 X (ix2 b k) := by
  rw [pay2_apply, pay1_of_rows X x0 p b hx k]
  rfl

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the grid: at point t the input block is block (t, 0, 0) of the queries' array
    and both output blocks are block (t, 0) of theirs. -/
theorem block_index : ∀ t : Fin cfg1.N, win1_0.index t (0 : Fin 3) = t.val
    ∧ win1_0.index t (1 : Fin 3) = 0
    ∧ win1_0.index t (2 : Fin 3) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- The input block at point t holds queries 16t … 16t + 15 whole. -/
theorem iblk_apply (c : Dev nD) (t : Fin cfg1.N) (p : Fin 16) (b : Fin 256) (hb : b.val = 16 * t.val + p.val) (ch k : Fin 256) :
    (iblk1 (F := Ideal) V c 0 t : Vec Ideal S16x256x256 .f32) (ix3 p ch k)
      = (V c main_v3 : S256x256x256.Idx → EReal) (ix3 b ch k) := by
  obtain ⟨e0, e1, e2, -⟩ := block_index t
  unfold iblk1
  rw [View.read_apply]
  show V c main_v3 _ = V c main_v3 _
  congr 1
  funext a
  apply Fin.ext
  match a with
  | ⟨0, _⟩ => show win1_0.index t (0 : Fin 3) * 16 + 1 * p.val = b.val; rw [e0, hb]; omega
  | ⟨1, _⟩ => show win1_0.index t (1 : Fin 3) * 256 + 1 * ch.val = ch.val; rw [e1]; omega
  | ⟨2, _⟩ => show win1_0.index t (2 : Fin 3) * 256 + 1 * k.val = k.val; rw [e2]; omega

/-- A [16,256] block that agrees, row p against row 16t + p, with an array G is the first output window's block t of G. -/
theorem block1_of_rows (t : Fin cfg1.N) (G : S256x256.Idx → EReal) (f : S16x256.Idx → EReal)
    (h : ∀ (p : Fin 16) (k : Fin 256) (b : Fin 256), b.val = 16 * t.val + p.val → f (ix2 p k) = G (ix2 b k)) :
    f = ((cfg1.win 1).blk t).view.read (Elt Ideal) G := by
  obtain ⟨-, -, -, e3, e4, -⟩ := block_index t
  have hN : cfg1.N = 16 := N_1
  have ht : t.val < 16 := hN ▸ t.isLt
  funext j
  obtain ⟨p, k, rfl⟩ : ∃ (p : Fin 16) (k : Fin 256), j = ix2 p k := ⟨j 0, j 1, eq_ix2 j⟩
  rw [View.read_apply]
  refine (h p k ⟨16 * t.val + p.val, by have := p.isLt; omega⟩ rfl).trans ?_
  congr 1
  funext a
  apply Fin.ext
  match a with
  | ⟨0, _⟩ => show 16 * t.val + p.val = win1_1.index t (0 : Fin 2) * 16 + 1 * p.val; rw [e3]; omega
  | ⟨1, _⟩ => show k.val = win1_1.index t (1 : Fin 2) * 256 + 1 * k.val; rw [e4]; omega

/-- The same for the second output window. -/
theorem block2_of_rows (t : Fin cfg1.N) (G : S256x256.Idx → EReal) (f : S16x256.Idx → EReal)
    (h : ∀ (p : Fin 16) (k : Fin 256) (b : Fin 256), b.val = 16 * t.val + p.val → f (ix2 p k) = G (ix2 b k)) :
    f = ((cfg1.win 2).blk t).view.read (Elt Ideal) G := by
  obtain ⟨-, -, -, -, -, e5, e6⟩ := block_index t
  have hN : cfg1.N = 16 := N_1
  have ht : t.val < 16 := hN ▸ t.isLt
  funext j
  obtain ⟨p, k, rfl⟩ : ∃ (p : Fin 16) (k : Fin 256), j = ix2 p k := ⟨j 0, j 1, eq_ix2 j⟩
  rw [View.read_apply]
  refine (h p k ⟨16 * t.val + p.val, by have := p.isLt; omega⟩ rfl).trans ?_
  congr 1
  funext a
  apply Fin.ext
  match a with
  | ⟨0, _⟩ => show 16 * t.val + p.val = win1_2.index t (0 : Fin 2) * 16 + 1 * p.val; rw [e5]; omega
  | ⟨1, _⟩ => show k.val = win1_2.index t (1 : Fin 2) * 256 + 1 * k.val; rw [e6]; omega

/-- What point t writes back to the first output array is block t of qsum of the queries' array. -/
theorem flushed_qsum (c : Dev nD) (t : Fin cfg1.N) :
    (dat1 (F := Ideal) V c).flushed 1 t = ((cfg1.win 1).blk t).view.read (Elt Ideal) (Cert.Spec.qsum (V c main_v3)) := by
  show (cfg1.win 1).cut (grid1.coords t) ((dat1 (F := Ideal) V c).after 1 t) = _
  rw [after1_1]
  unfold out1_1
  rw [View.canon_unit_zero zero2]
  simp only [View.ld_unit_zero (S := S16x256x256) zero3]
  refine block1_of_rows t _ _ fun p k b hb => ?_
  exact pay1_of_rows (V c main_v3) (iblk1 (F := Ideal) V c 0 t) p b (iblk_apply V c t p b hb) k

/-- What point t writes back to the second output array is block t of w1 of the queries' array. -/
theorem flushed_w1 (c : Dev nD) (t : Fin cfg1.N) :
    (dat1 (F := Ideal) V c).flushed 2 t = ((cfg1.win 2).blk t).view.read (Elt Ideal) (Cert.Spec.w1 (V c main_v3)) := by
  show (cfg1.win 2).cut (grid1.coords t) ((dat1 (F := Ideal) V c).after 2 t) = _
  rw [after1_2]
  unfold out1_2
  rw [View.canon_unit_zero zero2]
  simp only [View.ld_unit_zero (S := S16x256x256) zero3]
  refine block2_of_rows t _ _ fun p k b hb => ?_
  exact pay2_of_rows (V c main_v3) (iblk1 (F := Ideal) V c 0 t) p b (iblk_apply V c t p b hb) k

/-- An index of the first output array is in point t's block iff each coordinate is in the block's range on its axis. -/
theorem mem_block1 (t : Fin cfg1.N) (i : S256x256.Idx) :
    i ∈ ((cfg1.win 1).blk t).view.set ↔ ∀ a : Fin 2, win1_1.index t a * S16x256.size a ≤ (i a).val ∧ (i a).val < win1_1.index t a * S16x256.size a + S16x256.size a := by
  show i ∈ ((View.whole main_v4_0).slice (win1_1.rect t)).set ↔ _
  rw [View.set_slice_whole, Rect.mem_set_unit]
  exact Iff.rfl

/-- The same for the second output array. -/
theorem mem_block2 (t : Fin cfg1.N) (i : S256x256.Idx) :
    i ∈ ((cfg1.win 2).blk t).view.set ↔ ∀ a : Fin 2, win1_2.index t a * S16x256.size a ≤ (i a).val ∧ (i a).val < win1_2.index t a * S16x256.size a + S16x256.size a := by
  show i ∈ ((View.whole main_v4_1).slice (win1_2.rect t)).set ↔ _
  rw [View.set_slice_whole, Rect.mem_set_unit]
  exact Iff.rfl

/-- Query r of the first output array lies in the block of point r / 16: the 16 blocks tile the 256 queries. -/
theorem cover1 (i : S256x256.Idx) : ∃ t : Fin cfg1.N, (cfg1.win 1).flush t = true ∧ i ∈ ((cfg1.win 1).blk t).view.set := by
  have hi0 : (i 0).val < 256 := (i 0).isLt
  have hi1 : (i 1).val < 256 := (i 1).isLt
  have hN : cfg1.N = 16 := N_1
  obtain ⟨t, ht⟩ : ∃ t : Fin cfg1.N, t.val = (i 0).val / 16 := ⟨⟨(i 0).val / 16, by rw [hN]; omega⟩, rfl⟩
  obtain ⟨-, -, -, e3, e4, -⟩ := block_index t
  refine ⟨t, flush1_1 t, ?_⟩
  rw [mem_block1]
  intro a
  match a with
  | ⟨0, _⟩ => show win1_1.index t (0 : Fin 2) * 16 ≤ (i 0).val ∧ (i 0).val < win1_1.index t (0 : Fin 2) * 16 + 16; rw [e3, ht]; omega
  | ⟨1, _⟩ => show win1_1.index t (1 : Fin 2) * 256 ≤ (i 1).val ∧ (i 1).val < win1_1.index t (1 : Fin 2) * 256 + 256; rw [e4]; omega

/-- The same for the second output array. -/
theorem cover2 (i : S256x256.Idx) : ∃ t : Fin cfg1.N, (cfg1.win 2).flush t = true ∧ i ∈ ((cfg1.win 2).blk t).view.set := by
  have hi0 : (i 0).val < 256 := (i 0).isLt
  have hi1 : (i 1).val < 256 := (i 1).isLt
  have hN : cfg1.N = 16 := N_1
  obtain ⟨t, ht⟩ : ∃ t : Fin cfg1.N, t.val = (i 0).val / 16 := ⟨⟨(i 0).val / 16, by rw [hN]; omega⟩, rfl⟩
  obtain ⟨-, -, -, -, -, e5, e6⟩ := block_index t
  refine ⟨t, flush1_2 t, ?_⟩
  rw [mem_block2]
  intro a
  match a with
  | ⟨0, _⟩ => show win1_2.index t (0 : Fin 2) * 16 ≤ (i 0).val ∧ (i 0).val < win1_2.index t (0 : Fin 2) * 16 + 16; rw [e5, ht]; omega
  | ⟨1, _⟩ => show win1_2.index t (1 : Fin 2) * 256 ≤ (i 1).val ∧ (i 1).val < win1_2.index t (1 : Fin 2) * 256 + 256; rw [e6]; omega

/-- After the region its first output array holds qsum of the array the input window reads. -/
theorem arr_qsum (c : Dev nD) : (dat1 (F := Ideal) V c).arrAt 1 cfg1.N = Cert.Spec.qsum (V c main_v3) :=
  (dat1 (F := Ideal) V c).arrAt_eq_of_cover 1 (Cert.Spec.qsum (V c main_v3)) (fun t _ => flushed_qsum V c t) cover1

/-- After the region its second output array holds w1 of the array the input window reads. -/
theorem arr_w1 (c : Dev nD) : (dat1 (F := Ideal) V c).arrAt 2 cfg1.N = Cert.Spec.w1 (V c main_v3) :=
  (dat1 (F := Ideal) V c).arrAt_eq_of_cover 2 (Cert.Spec.w1 (V c main_v3)) (fun t _ => flushed_w1 V c t) cover2

end Cert.KernelIdeal.Region1

end
-- ==== Proof.Region2.lean ====
/-
  The third region, over 4 grid points, each taking 64 of the 256 queries. At a point the body reads its 64
  rows of qsum and w1 and the whole of ssumC and w2, broadcasts the first pair along the classes and the
  second pair along the queries, and stores (qsum · ssumC) / sqrt (max (w1 · w2, ε)) for its 64 queries and
  all 64 classes. Each stored block is the block of sim at the point's queries; the 4 blocks tile the 256.
-/
import proofs.«127284_j635655160223_1_alg».proof.Proof.Gen.KernelIdeal.Frame
import proofs.«127284_j635655160223_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The body's payload at an index -/

section Layout
variable {α : Type}

/-- A [64,256] block viewed [64,1,256] reads, at (p, u, k), the operand at (p, k): both have row-major position 256·p + k. -/
theorem cast_mid_unit (x : S64x256.Idx → α) (h : S64x256.ShapeCasts S64x1x256) (p : Fin 64) (u : Fin 1) (k : Fin 256) :
    shapeCast S64x1x256 x h (ix3 p u k) = x (ix2 p k) :=
  shapeCast_apply x h _ _ (by
    have hu : u.val = 0 := by omega
    rw [Shape.rowMajor_val_two, Shape.rowMajor_val_three]
    show p.val * 256 + k.val = (p.val * 1 + u.val) * 256 + k.val
    rw [hu]; omega)

/-- A [64,1,256] vector spread along the classes reads, at (p, n, k), the operand at (p, 0, k). -/
theorem spread_mid (y : S64x1x256.Idx → α) (h : S64x1x256.Broadcasts S64x64x256) (p : Fin 64) (n : Fin 64) (k : Fin 256) :
    broadcastTo S64x64x256 y h (ix3 p n k) = y (ix3 p (0 : Fin 1) k) :=
  broadcastTo_apply y h _ _ fun a => match a with | ⟨0, _⟩ => rfl | ⟨1, _⟩ => rfl | ⟨2, _⟩ => rfl

/-- A [1,64,256] vector spread along the queries reads, at (p, n, k), the operand at (0, n, k). -/
theorem spread_lead (y : S1x64x256.Idx → α) (h : S1x64x256.Broadcasts S64x64x256) (p : Fin 64) (n : Fin 64) (k : Fin 256) :
    broadcastTo S64x64x256 y h (ix3 p n k) = y (ix3 (0 : Fin 1) n k) :=
  broadcastTo_apply y h _ _ fun a => match a with | ⟨0, _⟩ => rfl | ⟨1, _⟩ => rfl | ⟨2, _⟩ => rfl

end Layout

/-- The square root of a vector, read at an index, is the extended reals' square root of the entry. -/
theorem root_apply {s : Shape} {φ : FTy} (a : FVec Ideal s φ) (i : s.Idx) : sqrt a i = Ideal.sqrt (a i) := rfl

/-- The stored value at block row p, class n, position k: the product of the first pair's (p, k) and (n, k) entries over
    the square root of the second pair's product floored at ε. -/
theorem pay_apply (x0 x1 x2 x3 : Vec Ideal S64x256 .f32) (p : Fin 64) (n : Fin 64) (k : Fin 256) :
    k2_pay1 (F := Ideal) x0 x1 x2 x3 (ix3 p n k)
      = Ideal.div (x0 (ix2 p k) * x2 (ix2 n k))
          (Ideal.sqrt (max (x1 (ix2 p k) * x3 (ix2 n k)) Cert.Spec.eps)) := by
  unfold k2_pay1
  simp only [shapeCast_self, divf_apply, mulf_apply, maximumf_apply, broadcast_apply, root_apply, spread_mid, spread_lead,
    cast_mid_unit, shapeCast_ab_1ab_apply]
  rfl

/-! ## From the blocks to the array -/

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The printed index maps over the 4 points: the query windows sit at the output's block row, at column block 0; the
    class windows are whole; the output's block row is the point's number, its other block indices 0. -/
theorem block_indices : ∀ t : Fin cfg2.N,
    win2_0.index t (0 : Fin 2) = win2_4.index t (0 : Fin 3) ∧ win2_0.index t (1 : Fin 2) = 0
    ∧ win2_1.index t (0 : Fin 2) = win2_4.index t (0 : Fin 3) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- Every block row of the output is some point's. -/
theorem block_row_onto : ∀ q : Fin 4, ∃ t : Fin cfg2.N, win2_4.index t = ![q.val, 0, 0] :=
  (by decide +kernel : ∀ q : Fin 4, ∃ t : Fin grid2.N, win2_4.index t = ![q.val, 0, 0])

/-- sim at an index i from the four entries it reads: the query pair at (i 0, i 2), the class pair at (i 1, i 2). -/
theorem sim_of_reads (q w₁ : S256x256.Idx → EReal) (sc w₂ : S64x256.Idx → EReal) (i : S256x64x256.Idx)
    (a a' : S256x256.Idx) (b b' : S64x256.Idx)
    (ha : a = ix2 (i 0) (i 2)) (ha' : a' = ix2 (i 0) (i 2)) (hb : b = ix2 (i 1) (i 2)) (hb' : b' = ix2 (i 1) (i 2)) :
    Ideal.div (q a * sc b) (Ideal.sqrt (max (w₁ a' * w₂ b') Cert.Spec.eps)) = Cert.Spec.sim q w₁ sc w₂ i := by
  subst ha ha' hb hb'; rfl

/-- What point t stores, at block row p, class n, position k, is sim at query 64·t + p, class n, position k: the query
    blocks are read at the same 64 rows, the class arrays whole. -/
theorem stored_at (c : Dev nD) (t : Fin cfg2.N) (p : Fin 64) (n : Fin 64) (k : Fin 256) :
    k2_pay1 (F := Ideal) (iblk2 V c 0 t) (iblk2 V c 1 t) (iblk2 V c 2 t) (iblk2 V c 3 t) (ix3 p n k)
      = Cert.Spec.sim (V c main_v4_0) (V c main_v4_1) (V c main_v2_0) (V c main_v2_1)
          (((cfg2.win 4).blk t).view.emb (ix3 p n k)) := by
  refine (pay_apply _ _ _ _ p n k).trans ?_
  obtain ⟨e0, e1, e2, e3, e4, e5, e6, e7, e8, e9, e10⟩ := block_indices t
  have hp : p.val < 64 := p.isLt
  have hn : n.val < 64 := n.isLt
  have hk : k.val < 256 := k.isLt
  refine sim_of_reads (V c main_v4_0) (V c main_v4_1) (V c main_v2_0) (V c main_v2_1)
    (((cfg2.win 4).blk t).view.emb (ix3 p n k))
    (((cfg2.win 0).blk t).view.emb (ix2 p k)) (((cfg2.win 1).blk t).view.emb (ix2 p k))
    (((cfg2.win 2).blk t).view.emb (ix2 n k)) (((cfg2.win 3).blk t).view.emb (ix2 n k)) ?_ ?_ ?_ ?_
  · funext a; apply Fin.ext
    match a with
    | ⟨0, _⟩ => show win2_0.index t (0 : Fin 2) * 64 + 1 * p.val = win2_4.index t (0 : Fin 3) * 64 + 1 * p.val; omega
    | ⟨1, _⟩ => show win2_0.index t (1 : Fin 2) * 256 + 1 * k.val = win2_4.index t (2 : Fin 3) * 256 + 1 * k.val; omega
  · funext a; apply Fin.ext
    match a with
    | ⟨0, _⟩ => show win2_1.index t (0 : Fin 2) * 64 + 1 * p.val = win2_4.index t (0 : Fin 3) * 64 + 1 * p.val; omega
    | ⟨1, _⟩ => show win2_1.index t (1 : Fin 2) * 256 + 1 * k.val = win2_4.index t (2 : Fin 3) * 256 + 1 * k.val; omega
  · funext a; apply Fin.ext
    match a with
    | ⟨0, _⟩ => show win2_2.index t (0 : Fin 2) * 64 + 1 * n.val = win2_4.index t (1 : Fin 3) * 64 + 1 * n.val; omega
    | ⟨1, _⟩ => show win2_2.index t (1 : Fin 2) * 256 + 1 * k.val = win2_4.index t (2 : Fin 3) * 256 + 1 * k.val; omega
  · funext a; apply Fin.ext
    match a with
    | ⟨0, _⟩ => show win2_3.index t (0 : Fin 2) * 64 + 1 * n.val = win2_4.index t (1 : Fin 3) * 64 + 1 * n.val; omega
    | ⟨1, _⟩ => show win2_3.index t (1 : Fin 2) * 256 + 1 * k.val = win2_4.index t (2 : Fin 3) * 256 + 1 * k.val; omega

/-- What point t writes back is block t of sim of the four arrays as the region finds them. -/
theorem written_back (c : Dev nD) (t : Fin cfg2.N) :
    (dat2 (F := Ideal) V c).flushed 4 t
      = ((cfg2.win 4).blk t).view.read (Elt Ideal)
          (Cert.Spec.sim (V c main_v4_0) (V c main_v4_1) (V c main_v2_0) (V c main_v2_1)) := by
  show (cfg2.win 4).cut (grid2.coords t) ((dat2 V c).after 4 t) = _
  rw [after2_4]
  unfold out2_4
  rw [View.canon_unit_zero zero_off3]
  simp only [View.ld_unit_zero (S := S64x256) zero_off2]
  funext j
  obtain ⟨p, n, k, rfl⟩ : ∃ (p : Fin 64) (n : Fin 64) (k : Fin 256), j = ix3 p n k :=
    ⟨j 0, j 1, j 2, eq_ix3 (n0 := 64) (n1 := 64) (n2 := 256) j⟩
  exact stored_at V c t p n k

/-- An index of the output array is in point t's block iff each coordinate is in the block's range on its axis. -/
theorem mem_block (t : Fin cfg2.N) (i : S256x64x256.Idx) :
    i ∈ ((cfg2.win 4).blk t).view.set ↔ ∀ a : Fin 3, win2_4.index t a * S64x64x256.size a ≤ (i a).val
      ∧ (i a).val < win2_4.index t a * S64x64x256.size a + S64x64x256.size a := by
  show i ∈ ((View.whole main_v5).slice (win2_4.rect t)).set ↔ _
  rw [View.set_slice_whole, Rect.mem_set_unit]
  exact Iff.rfl

/-- The 4 blocks tile the 256 queries: query b lies in the block of point b / 64, which writes back. -/
theorem blocks_cover (i : S256x64x256.Idx) :
    ∃ t : Fin cfg2.N, (cfg2.win 4).flush t = true ∧ i ∈ ((cfg2.win 4).blk t).view.set := by
  have hi0 : (i 0).val < 256 := (i 0).isLt
  have hi1 : (i 1).val < 64 := (i 1).isLt
  have hi2 : (i 2).val < 256 := (i 2).isLt
  obtain ⟨t, ht⟩ := block_row_onto ⟨(i 0).val / 64, by omega⟩
  have q0 : win2_4.index t (0 : Fin 3) = (i 0).val / 64 := congrFun ht 0
  have q1 : win2_4.index t (1 : Fin 3) = 0 := congrFun ht 1
  have q2 : win2_4.index t (2 : Fin 3) = 0 := congrFun ht 2
  refine ⟨t, flush2_4 t, ?_⟩
  rw [mem_block]
  intro a
  match a with
  | ⟨0, _⟩ => show win2_4.index t (0 : Fin 3) * 64 ≤ (i 0).val ∧ (i 0).val < win2_4.index t (0 : Fin 3) * 64 + 64; omega
  | ⟨1, _⟩ => show win2_4.index t (1 : Fin 3) * 64 ≤ (i 1).val ∧ (i 1).val < win2_4.index t (1 : Fin 3) * 64 + 64; omega
  | ⟨2, _⟩ => show win2_4.index t (2 : Fin 3) * 256 ≤ (i 2).val ∧ (i 2).val < win2_4.index t (2 : Fin 3) * 256 + 256; omega

/-- After the region its output array holds sim of the four arrays its input windows read. -/
theorem arr_sim (c : Dev nD) :
    (dat2 (F := Ideal) V c).arrAt 4 cfg2.N
      = Cert.Spec.sim (V c main_v4_0) (V c main_v4_1) (V c main_v2_0) (V c main_v2_1) :=
  (dat2 (F := Ideal) V c).arrAt_eq_of_cover 4 _ (fun t _ => written_back V c t) blocks_cover

end Cert.KernelIdeal.Region2

end
-- ==== Proof.KernelValue.lean ====
/-
  The result array at the end of the kernel program's run, as a function of the two arguments.

  The run's boundaries are walked back from the last one. The result is the closing re-layout of the third
  region's output. That region reads four arrays: the second region's two outputs, which nothing writes after
  that region, and the first region's two outputs, which neither the host re-layout between the regions nor the
  second region writes. The first region reads the second argument re-laid to [64, 5, 256, 256] (V), the second
  region the first argument re-laid to [256, 256, 256] (X). With each region's output arrays at the specification's
  functions of the array it reads, the result is the re-layout of the similarity array of V and X.
-/
import proofs.«127284_j635655160223_1_alg».proof.Proof.Gen.KernelIdeal.Frame
import proofs.«127284_j635655160223_1_alg».proof.Proof.Spec
import proofs.«127284_j635655160223_1_alg».proof.Proof.Region0
import proofs.«127284_j635655160223_1_alg».proof.Proof.Region1
import proofs.«127284_j635655160223_1_alg».proof.Proof.Region2
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

/-! ## The host re-layouts, over any contents -/

section Host
variable (W : Valuation τ sig (Elt Ideal))

/-- The second argument transposed and reshaped to [64, 5, 256, 256]. -/
abbrev relaidV (x1 : (⟨S64x5x256x16x16, .f32⟩ : BufTy).Contents (Elt Ideal)) : (⟨S64x5x256x256, .f32⟩ : BufTy).Contents (Elt Ideal) :=
  shapeCast S64x5x256x256 (transpose S64x256x5x16x16 [0, 2, 1, 3, 4] x1 transposes_S64x5x256x16x16_S64x256x5x16x16_0_2_1_3_4)
    shapeCasts_S64x256x5x16x16_S64x5x256x256

/-- The first argument reshaped to [256, 256, 256]. -/
abbrev relaidX (x0 : (⟨S256x256x16x16, .f32⟩ : BufTy).Contents (Elt Ideal)) : (⟨S256x256x256, .f32⟩ : BufTy).Contents (Elt Ideal) :=
  shapeCast S256x256x256 x0 shapeCasts_S256x256x16x16_S256x256x256

/-- The result as a function of the two arguments: the similarity array of V and X, reshaped to [256, 16384]. -/
abbrev result (x0 : (⟨S256x256x16x16, .f32⟩ : BufTy).Contents (Elt Ideal)) (x1 : (⟨S64x5x256x16x16, .f32⟩ : BufTy).Contents (Elt Ideal)) :
    (⟨S256x16384, .f32⟩ : BufTy).Contents (Elt Ideal) :=
  shapeCast S256x16384 (Cert.Spec.simOf (relaidV x1) (relaidX x0)) shapeCasts_S256x64x256_S256x16384

/-- The first stretch leaves the first region's input at V of the second argument. -/
theorem after0_v1 : after (hostOps0 (F := Ideal)) W (main_v1 : DevRef τ sig) = relaidV (W (main_arg1 : DevRef τ sig)) := by
  after_results
  rfl

/-- It does not write the first argument. -/
theorem after0_arg0 : after (hostOps0 (F := Ideal)) W (main_arg0 : DevRef τ sig) = W (main_arg0 : DevRef τ sig) := by
  after_results

/-- The second stretch leaves the second region's input at X of the first argument, -/
theorem after1_v3 : after (hostOps1 (F := Ideal)) W (main_v3 : DevRef τ sig) = relaidX (W (main_arg0 : DevRef τ sig)) := by
  after_results
  rfl

/-- and does not write the first region's two outputs. -/
theorem after1_v2_0 : after (hostOps1 (F := Ideal)) W (main_v2_0 : DevRef τ sig) = W (main_v2_0 : DevRef τ sig) := by
  after_results
theorem after1_v2_1 : after (hostOps1 (F := Ideal)) W (main_v2_1 : DevRef τ sig) = W (main_v2_1 : DevRef τ sig) := by
  after_results

/-- The last stretch leaves the result at the third region's output reshaped. -/
theorem after3_v6 : after (hostOps3 (F := Ideal)) W (main_v6 : DevRef τ sig)
    = shapeCast S256x16384 (W (main_v5 : DevRef τ sig)) shapeCasts_S256x64x256_S256x16384 := by
  after_results
  rfl

end Host

/-! ## The boundaries' contents, from the launch -/

variable (m : (ℓ : Loc nD τ sig) → Buf (Elt Ideal) ℓ) (ρ : Dev nD → PrngReg)

/-- V of the launch memory. -/
abbrev Vm (c : Dev nD) := relaidV (m ((c : Thread nD τ).loc main_arg1))
/-- X of the launch memory. -/
abbrev Xm (c : Dev nD) := relaidX (m ((c : Thread nD τ).loc main_arg0))

/-- The first region is entered with its input at V. -/
theorem W1_v1 (c : Dev nD) : W1 m ρ c (Proc.devRef .tc main_v1) = Vm m c :=
  after0_v1 (W0 m ρ c)

/-- At the first region's exit its outputs are ssumC V and w2 V. -/
theorem W2_v2_0 (c : Dev nD) : W2 m ρ c (Proc.devRef .tc main_v2_0) = Cert.Spec.ssumC (Vm m c) :=
  (W2_arr m ρ c 1).trans ((Region0.arr_ssumC (V1 m ρ) c).trans (congrArg Cert.Spec.ssumC (W1_v1 m ρ c)))
theorem W2_v2_1 (c : Dev nD) : W2 m ρ c (Proc.devRef .tc main_v2_1) = Cert.Spec.w2 (Vm m c) :=
  (W2_arr m ρ c 2).trans ((Region0.arr_w2 (V1 m ρ) c).trans (congrArg Cert.Spec.w2 (W1_v1 m ρ c)))

/-- The first argument is still as launched at the first region's exit. -/
theorem W2_arg0 (c : Dev nD) : W2 m ρ c (Proc.devRef .tc main_arg0) = m ((c : Thread nD τ).loc main_arg0) :=
  (W2_of_ne m ρ c main_arg0 (by decide)).trans (after0_arg0 (W0 m ρ c))

/-- The second region is entered with its input at X, the first region's outputs as they were. -/
theorem W3_v3 (c : Dev nD) : W3 m ρ c (Proc.devRef .tc main_v3) = Xm m c :=
  (after1_v3 (W2 m ρ c)).trans (congrArg relaidX (W2_arg0 m ρ c))
theorem W3_v2_0 (c : Dev nD) : W3 m ρ c (Proc.devRef .tc main_v2_0) = Cert.Spec.ssumC (Vm m c) :=
  (after1_v2_0 (W2 m ρ c)).trans (W2_v2_0 m ρ c)
theorem W3_v2_1 (c : Dev nD) : W3 m ρ c (Proc.devRef .tc main_v2_1) = Cert.Spec.w2 (Vm m c) :=
  (after1_v2_1 (W2 m ρ c)).trans (W2_v2_1 m ρ c)

/-- At the second region's exit its outputs are qsum X and w1 X, the first region's outputs as they were. -/
theorem W4_v4_0 (c : Dev nD) : W4 m ρ c (Proc.devRef .tc main_v4_0) = Cert.Spec.qsum (Xm m c) :=
  (W4_arr m ρ c 1).trans ((Region1.arr_qsum (V3 m ρ) c).trans (congrArg Cert.Spec.qsum (W3_v3 m ρ c)))
theorem W4_v4_1 (c : Dev nD) : W4 m ρ c (Proc.devRef .tc main_v4_1) = Cert.Spec.w1 (Xm m c) :=
  (W4_arr m ρ c 2).trans ((Region1.arr_w1 (V3 m ρ) c).trans (congrArg Cert.Spec.w1 (W3_v3 m ρ c)))
theorem W4_v2_0 (c : Dev nD) : W4 m ρ c (Proc.devRef .tc main_v2_0) = Cert.Spec.ssumC (Vm m c) :=
  (W4_of_ne m ρ c main_v2_0 (by decide)).trans (W3_v2_0 m ρ c)
theorem W4_v2_1 (c : Dev nD) : W4 m ρ c (Proc.devRef .tc main_v2_1) = Cert.Spec.w2 (Vm m c) :=
  (W4_of_ne m ρ c main_v2_1 (by decide)).trans (W3_v2_1 m ρ c)

/-- At the third region's exit its output is the similarity array of V and X. -/
theorem W5_v5 (c : Dev nD) : W5 m ρ c (Proc.devRef .tc main_v5) = Cert.Spec.simOf (Vm m c) (Xm m c) := by
  refine (W5_arr m ρ c 4).trans ((Region2.arr_sim (V4 m ρ) c).trans ?_)
  show Cert.Spec.sim (W4 m ρ c (Proc.devRef .tc main_v4_0)) (W4 m ρ c (Proc.devRef .tc main_v4_1))
      (W4 m ρ c (Proc.devRef .tc main_v2_0)) (W4 m ρ c (Proc.devRef .tc main_v2_1)) = _
  rw [W4_v4_0, W4_v4_1, W4_v2_0, W4_v2_1]
  rfl

/-- The result array at the last boundary: the similarity array of V and X, reshaped. -/
theorem W6_v6 (c : Dev nD) :
    W6 m ρ c (Proc.devRef .tc main_v6) = result (m ((c : Thread nD τ).loc main_arg0)) (m ((c : Thread nD τ).loc main_arg1)) :=
  (after3_v6 (W5 m ρ c)).trans (congrArg (fun a => shapeCast S256x16384 a shapeCasts_S256x64x256_S256x16384) (W5_v5 m ρ c))

end Cert.KernelIdeal.KValue

end
-- ==== Proof.RefValue.lean ====
/-
  The reference's last array before its closing re-layout, read index by index, is the similarity array of
  the specification at V = the re-laid second argument and X = the re-laid first argument: every operation of
  the reference is one operation of the specification, each sum with the initial value 0 added in front.
-/
import proofs.«127284_j635655160223_1_alg».proof.Proof.Gen.ReferenceIdeal.Read
import proofs.«127284_j635655160223_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ### Where each stage reads its operand: the composed index maps at coordinates -/

/-- The channel sum behind the mean at (n, s, ·, k) runs over the entries (n, s, c', k). -/
theorem idx_mean (n : Fin 64) (s : Fin 5) (c k c' : Fin 256) :
    idx_main_v2 (idx_main_v3 (idx_main_v6 (ix4 n s c k))) c' = ix4 n s c' k :=
  funext fun a => by match a with | ⟨0, _⟩ => rfl | ⟨1, _⟩ => rfl | ⟨2, _⟩ => rfl | ⟨3, _⟩ => rfl

/-- The shot sum at (n, c, k) runs over the entries (n, s, c, k). -/
theorem idx_shot (n : Fin 64) (c k : Fin 256) (s : Fin 5) :
    idx_main_v8 (ix3 n c k) s = ix4 n s c k :=
  funext fun a => by match a with | ⟨0, _⟩ => rfl | ⟨1, _⟩ => rfl | ⟨2, _⟩ => rfl | ⟨3, _⟩ => rfl

/-- The channel sum of the class arrays at (n, k) runs over the entries (n, c, k). -/
theorem idx_chanC (n : Fin 64) (k c : Fin 256) :
    idx_main_v14 (ix2 n k) c = ix3 n c k :=
  funext fun a => by match a with | ⟨0, _⟩ => rfl | ⟨1, _⟩ => rfl | ⟨2, _⟩ => rfl

/-- The same for the sum of squares. -/
theorem idx_chanW (n : Fin 64) (k c : Fin 256) :
    idx_main_v16 (ix2 n k) c = ix3 n c k :=
  funext fun a => by match a with | ⟨0, _⟩ => rfl | ⟨1, _⟩ => rfl | ⟨2, _⟩ => rfl

/-- The channel sum of the normalised query at (b, k) runs over the entries (b, c, k). -/
theorem idx_chanQ (b k c : Fin 256) :
    idx_main_v13 (ix2 b k) c = ix3 b c k :=
  funext fun a => by match a with | ⟨0, _⟩ => rfl | ⟨1, _⟩ => rfl | ⟨2, _⟩ => rfl

/-- The norm read at (b, c, k) is the position sum over the entries (b, c, k'). -/
theorem idx_norm (b c k k' : Fin 256) :
    idx_main_call0_v1 (idx_main_call0_v2 (idx_main_v11 (ix3 b c k))) k' = ix3 b c k' :=
  funext fun a => by match a with | ⟨0, _⟩ => rfl | ⟨1, _⟩ => rfl | ⟨2, _⟩ => rfl

/-- The query-side arrays broadcast along the classes are read at (b, k). -/
theorem idx_bq (b : Fin 256) (n : Fin 64) (k : Fin 256) :
    idx_main_v20 (idx_main_v22 (ix3 b n k)) = ix2 b k :=
  funext fun a => by match a with | ⟨0, _⟩ => rfl | ⟨1, _⟩ => rfl

/-- The same for the second pair of broadcasts. -/
theorem idx_bq' (b : Fin 256) (n : Fin 64) (k : Fin 256) :
    idx_main_v25 (idx_main_v27 (ix3 b n k)) = ix2 b k :=
  funext fun a => by match a with | ⟨0, _⟩ => rfl | ⟨1, _⟩ => rfl

/-- The class-side arrays broadcast along the queries are read at (n, k). -/
theorem idx_bc (b : Fin 256) (n : Fin 64) (k : Fin 256) :
    idx_main_v21 (idx_main_v23 (ix3 b n k)) = ix2 n k :=
  funext fun a => by match a with | ⟨0, _⟩ => rfl | ⟨1, _⟩ => rfl

/-- The same for the second pair of broadcasts. -/
theorem idx_bc' (b : Fin 256) (n : Fin 64) (k : Fin 256) :
    idx_main_v26 (idx_main_v28 (ix3 b n k)) = ix2 n k :=
  funext fun a => by match a with | ⟨0, _⟩ => rfl | ⟨1, _⟩ => rfl

/-! ### The class side -/

/-- The broadcast quotient at (n, s, c, k) is the mean over channels at (n, s, k). -/
theorem v6_at (x1 : (⟨S64x5x256x16x16, .f32⟩ : BufTy).Contents (Elt Ideal)) (n : Fin 64) (s : Fin 5) (c k : Fin 256) :
    val_main_v6 (F := Ideal) x1 (ix4 n s c k) = Cert.Spec.mean (val_main_v1 (F := Ideal) x1) n s k := by
  rw [val_main_v6_apply, val_main_v5_apply, val_main_v3_apply, val_main_v2_apply, val_main_v4_apply,
    val_main_cst_0_apply, val_main_cst_apply]
  simp only [idx_mean, Ideal.hostDivf_def, Ideal.ofBits_def, Ideal.ofBits_zero_f32, zero_add]
  rfl

/-- The shot sum of the centred values at (n, c, k). -/
theorem v8_at (x1 : (⟨S64x5x256x16x16, .f32⟩ : BufTy).Contents (Elt Ideal)) (n : Fin 64) (c k : Fin 256) :
    val_main_v8 (F := Ideal) x1 (ix3 n c k) = Cert.Spec.ssum (val_main_v1 (F := Ideal) x1) n c k := by
  rw [val_main_v8_apply, val_main_cst_1_apply]
  simp only [idx_shot, val_main_v7_apply, v6_at, Ideal.subf_def, Ideal.ofBits_def, Ideal.ofBits_zero_f32, zero_add]
  rfl

/-- The channel sum of the shot sums is the specification's. -/
theorem v14_eq (x1 : (⟨S64x5x256x16x16, .f32⟩ : BufTy).Contents (Elt Ideal)) :
    val_main_v14 (F := Ideal) x1 = Cert.Spec.ssumC (val_main_v1 (F := Ideal) x1) := by
  funext j
  obtain ⟨n, k, rfl⟩ : ∃ (n : Fin 64) (k : Fin 256), j = ix2 n k := ⟨j 0, j 1, eq_ix2 j⟩
  rw [val_main_v14_apply, val_main_cst_3_apply]
  simp only [idx_chanC, v8_at, Ideal.ofBits_def, Ideal.ofBits_zero_f32, zero_add]
  rfl

/-- The channel sum of the squared shot sums is the specification's. -/
theorem v16_eq (x1 : (⟨S64x5x256x16x16, .f32⟩ : BufTy).Contents (Elt Ideal)) :
    val_main_v16 (F := Ideal) x1 = Cert.Spec.w2 (val_main_v1 (F := Ideal) x1) := by
  funext j
  obtain ⟨n, k, rfl⟩ : ∃ (n : Fin 64) (k : Fin 256), j = ix2 n k := ⟨j 0, j 1, eq_ix2 j⟩
  rw [val_main_v16_apply, val_main_cst_4_apply]
  simp only [idx_chanW, val_main_v15_apply, v8_at, Ideal.mulf_def, Ideal.ofBits_def, Ideal.ofBits_zero_f32, zero_add]
  rfl

/-! ### The query side -/

/-- The broadcast norm at (b, c, k) is the Euclidean norm of the row (b, c, ·). -/
theorem v11_at (x0 : (⟨S256x256x16x16, .f32⟩ : BufTy).Contents (Elt Ideal)) (b c k : Fin 256) :
    val_main_v11 (F := Ideal) x0 (ix3 b c k) = Cert.Spec.nrm (val_main_v9 (F := Ideal) x0) b c := by
  rw [val_main_v11_apply, val_main_v10_apply, val_main_call0_v2_apply, val_main_call0_v1_apply, val_main_call0_cst_apply]
  simp only [idx_norm, val_main_call0_v0_apply, Ideal.hostUnary_sqrt_def, Ideal.mulf_def, Ideal.ofBits_def,
    Ideal.ofBits_zero_f32, zero_add]
  rfl

/-- The channel sum of the normalised rows is the specification's. -/
theorem v13_eq (x0 : (⟨S256x256x16x16, .f32⟩ : BufTy).Contents (Elt Ideal)) :
    val_main_v13 (F := Ideal) x0 = Cert.Spec.qsum (val_main_v9 (F := Ideal) x0) := by
  funext j
  obtain ⟨b, k, rfl⟩ : ∃ (b : Fin 256) (k : Fin 256), j = ix2 b k := ⟨j 0, j 1, eq_ix2 j⟩
  rw [val_main_v13_apply, val_main_cst_2_apply]
  simp only [idx_chanQ, val_main_v12_apply, v11_at, Ideal.hostDivf_def, Ideal.ofBits_def, Ideal.ofBits_zero_f32, zero_add]
  rfl

/-- 256 times the channel sum times the channel sum is the specification's. -/
theorem v19_eq (x0 : (⟨S256x256x16x16, .f32⟩ : BufTy).Contents (Elt Ideal)) :
    val_main_v19 (F := Ideal) x0 = Cert.Spec.w1 (val_main_v9 (F := Ideal) x0) := by
  funext j
  rw [val_main_v19_apply, val_main_v18_apply, val_main_v17_apply, val_main_cst_5_apply, v13_eq]
  simp only [Ideal.mulf_def, Ideal.ofBits_def]
  rfl

/-! ### The quotient -/

/-- The reference's quotient array is the specification's similarity array of its two re-laid arguments. -/
theorem v33_eq (x0 : (⟨S256x256x16x16, .f32⟩ : BufTy).Contents (Elt Ideal))
    (x1 : (⟨S64x5x256x16x16, .f32⟩ : BufTy).Contents (Elt Ideal)) :
    val_main_v33 (F := Ideal) x0 x1
      = Cert.Spec.simOf (val_main_v1 (F := Ideal) x1) (val_main_v9 (F := Ideal) x0) := by
  funext i
  obtain ⟨b, n, k, rfl⟩ : ∃ (b : Fin 256) (n : Fin 64) (k : Fin 256), i = ix3 b n k := ⟨i 0, i 1, i 2, eq_ix3 i⟩
  rw [val_main_v33_apply, val_main_v24_apply, val_main_v32_apply, val_main_v31_apply, val_main_v29_apply,
    val_main_v22_apply, val_main_v20_apply, val_main_v23_apply, val_main_v21_apply,
    val_main_v27_apply, val_main_v25_apply, val_main_v28_apply, val_main_v26_apply,
    val_main_v30_apply, val_main_cst_6_apply]
  simp only [idx_bq, idx_bq', idx_bc, idx_bc', v13_eq, v14_eq, v16_eq, v19_eq,
    Ideal.hostDivf_def, Ideal.hostUnary_sqrt_def, Ideal.mulf_def, Ideal.maximumf_def, Ideal.ofBits_def]
  rfl

end Cert.ReferenceIdeal.RefValue

end
-- ==== Proof.lean ====
/-
  The kernel program and its reference compute the same similarity array.

  Both start from the same two re-layouts: the second argument transposed and reshaped to V : [64, 5, 256, 256]
  (class, shot, channel, position) and the first argument reshaped to X : [256, 256, 256] (query, channel,
  position). From V: the mean over channels is subtracted, the centred values are summed over the shots, and
  that array's sum over channels (ssumC) and sum of squares over channels (w2) are kept. From X: each channel's
  row is divided by its Euclidean norm over the positions and the quotients are summed over channels (qsum);
  w1 = 256 · qsum · qsum. The result at (query b, class n, position k) is
  qsum(b,k) · ssumC(n,k) / sqrt (max (w1(b,k) · w2(n,k), ε)), reshaped to [256, 16384].

  The reference does this in one pass over whole arrays. The kernel program does it in three tiled regions
  (8 blocks of 8 classes, 16 blocks of 16 queries, 4 blocks of 64 queries); no operation mixes the tiled axis,
  so each block is the block of the whole-array function, and the blocks tile their arrays. Operation for
  operation the two sides are the same, with the same constants, so over the extended reals they agree with no
  law of arithmetic beyond 0 + x = x for the reference's initial values, and without using that the inputs are
  finite. Nothing was rewritten when the kernel was idealized, so that conjunct is trivial.
-/
import proofs.«127284_j635655160223_1_alg».proof.Defs
import proofs.«127284_j635655160223_1_alg».proof.Proof.Gen.Kernel
import proofs.«127284_j635655160223_1_alg».proof.Proof.Gen.Kernel.Skeleton
import proofs.«127284_j635655160223_1_alg».proof.Proof.Gen.Kernel.Launch
import proofs.«127284_j635655160223_1_alg».proof.Proof.Gen.Kernel.Points
import proofs.«127284_j635655160223_1_alg».proof.Proof.Gen.Kernel.Frame
import proofs.«127284_j635655160223_1_alg».proof.Proof.Gen.KernelIdeal
import proofs.«127284_j635655160223_1_alg».proof.Proof.Gen.KernelIdeal.Skeleton
import proofs.«127284_j635655160223_1_alg».proof.Proof.Gen.KernelIdeal.Launch
import proofs.«127284_j635655160223_1_alg».proof.Proof.Gen.KernelIdeal.Points
import proofs.«127284_j635655160223_1_alg».proof.Proof.Gen.KernelIdeal.Frame
import proofs.«127284_j635655160223_1_alg».proof.Proof.Gen.ReferenceIdeal
import proofs.«127284_j635655160223_1_alg».proof.Proof.Gen.ReferenceIdeal.Run
import proofs.«127284_j635655160223_1_alg».proof.Proof.Gen.ReferenceIdeal.Read
import proofs.«127284_j635655160223_1_alg».proof.Proof.Gen.Pre_finite_inputs
import proofs.«127284_j635655160223_1_alg».proof.Proof.Spec
import proofs.«127284_j635655160223_1_alg».proof.Proof.KernelRun
import proofs.«127284_j635655160223_1_alg».proof.Proof.KernelValue
import proofs.«127284_j635655160223_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten in the idealization. -/
theorem preserves : Cert.preserves_Kernel_KernelIdeal := trivial

/-- From memories that agree on the arguments both programs end with the result at the re-laid similarity
    array of V and X: the kernel program by its run read back through its three regions, the reference by its
    run read one operation at a time; the two re-layouts of the arguments and the closing reshape are the same
    terms on both sides. -/
theorem algebraic : Cert.algebraic_KernelIdeal_ReferenceIdeal := by
  intro m ρ m' ρ' _ hagree
  refine ⟨fun c => Cert.KernelIdeal.KValue.result
      (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.KValue.W6_v6 m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2]
    unfold Cert.ReferenceIdeal.Read.val_main_v34
    rw [Cert.ReferenceIdeal.RefValue.v33_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
